-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000x128 : Shape := ⟨2, ![640000, 128]⟩
abbrev S640000 : Shape := ⟨1, ![640000]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S640000 : S_.BroadcastsInDim S640000 (![] : Fin 0 → Fin S640000.rank)
  reducesTo_S640000_S_d0 : S640000.ReducesTo [0] S_

variable [Facts]

def fn_part3 {F : FTy → Type} [FloatOps F] (main_arg3 : IVec S640000 32) (main_v46 : IVec S_ 1) (main_v49 : IVec S_ 1) : IVec S_ 1 :=
  let main_v50 : IVec S_ 1 := andi main_v46 main_v49
  let main_c_20 : IVec S_ 32 := constantI S_ 32 100000#32
  let main_v51 : IVec S640000 32 := broadcastInDim S640000 ![] bcast_S_S640000 main_c_20
  let main_v52 : IVec S640000 1 := cmpi .slt main_arg3 main_v51
  let main_c_21 : IVec S_ 1 := constantI S_ 1 1#1
  let main_v53 : IVec S_ 1 := (fun x v => Host.reduce IntOp.andi x v reducesTo_S640000_S_d0 h_S_) main_v52 main_c_21
  let main_v54 : IVec S_ 1 := andi main_v50 main_v53
  main_v54

def fn_part2 {F : FTy → Type} [FloatOps F] (main_arg2 : IVec S640000 32) (main_arg3 : IVec S640000 32) (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 4294867296#32
  let main_v39 : IVec S640000 32 := broadcastInDim S640000 ![] bcast_S_S640000 main_c_14
  let main_v40 : IVec S640000 1 := cmpi .sge main_arg2 main_v39
  let main_c_15 : IVec S_ 1 := constantI S_ 1 1#1
  let main_v41 : IVec S_ 1 := (fun x v => Host.reduce IntOp.andi x v reducesTo_S640000_S_d0 h_S_) main_v40 main_c_15
  let main_v42 : IVec S_ 1 := andi main_v38 main_v41
  let main_c_16 : IVec S_ 32 := constantI S_ 32 100000#32
  let main_v43 : IVec S640000 32 := broadcastInDim S640000 ![] bcast_S_S640000 main_c_16
  let main_v44 : IVec S640000 1 := cmpi .slt main_arg2 main_v43
  let main_c_17 : IVec S_ 1 := constantI S_ 1 1#1
  let main_v45 : IVec S_ 1 := (fun x v => Host.reduce IntOp.andi x v reducesTo_S640000_S_d0 h_S_) main_v44 main_c_17
  let main_v46 : IVec S_ 1 := andi main_v42 main_v45
  let main_c_18 : IVec S_ 32 := constantI S_ 32 4294867296#32
  let main_v47 : IVec S640000 32 := broadcastInDim S640000 ![] bcast_S_S640000 main_c_18
  let main_v48 : IVec S640000 1 := cmpi .sge main_arg3 main_v47
  let main_c_19 : IVec S_ 1 := constantI S_ 1 1#1
  let main_v49 : IVec S_ 1 := (fun x v => Host.reduce IntOp.andi x v reducesTo_S640000_S_d0 h_S_) main_v48 main_c_19
  fn_part3 (F := F) main_arg3 main_v46 main_v49

def fn_part1 {F : FTy → Type} [FloatOps F] (main_arg2 : IVec S640000 32) (main_arg3 : IVec S640000 32) (main_arg6 : FVec F S384x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x128 .f32 := Host.absf main_arg6
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_v33

def fn {F : FTy → Type} [FloatOps F] (main_arg0 : FVec F S100000x128 .f32) (main_arg1 : FVec F S640000x128 .f32) (main_arg2 : IVec S640000 32) (main_arg3 : IVec S640000 32) (main_arg4 : FVec F S384x128 .f32) (main_arg5 : FVec F S128 .f32) (main_arg6 : FVec F S384x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_v13 main_v16
-- ==== Kernel.lean ====
abbrev S100000x128 : Shape := ⟨2, ![100000, 128]⟩
abbrev S640000x128 : Shape := ⟨2, ![640000, 128]⟩
abbrev S640000 : Shape := ⟨1, ![640000]⟩
abbrev S384x128 : Shape := ⟨2, ![384, 128]⟩
abbrev S128 : Shape := ⟨1, ![128]⟩
abbrev S128x128 : Shape := ⟨2, ![128, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S4000x128 : Shape := ⟨2, ![4000, 128]⟩
abbrev S4000x384 : Shape := ⟨2, ![4000, 384]⟩
abbrev S1x128 : Shape := ⟨2, ![1, 128]⟩
abbrev S5000x128 : Shape := ⟨2, ![5000, 128]⟩

abbrev nBuf : Space → Nat
  | .hbm => 62
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x128, .f32⟩
  | .hbm, ⟨5, _⟩ => ⟨S128, .f32⟩
  | .hbm, ⟨6, _⟩ => ⟨S384x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S1, .i32⟩
  | .hbm, ⟨19, _⟩ => ⟨S_, .i32⟩
  | .hbm, ⟨20, _⟩ => ⟨S640000x1, .i32⟩
  | .hbm, ⟨21, _⟩ => ⟨S640000x1, .i1⟩
  | .hbm, ⟨22, _⟩ => ⟨S1x1, .i32⟩
  | .hbm, ⟨23, _⟩ => ⟨S640000x1, .i32⟩
  | .hbm, ⟨24, _⟩ => ⟨S640000x1, .i1⟩
  | .hbm, ⟨25, _⟩ => ⟨S640000x1, .i1⟩
  | .hbm, ⟨26, _⟩ => ⟨S_, .i1⟩
  | .hbm, ⟨27, _⟩ => ⟨S640000, .i1⟩
  | .hbm, ⟨28, _⟩ => ⟨S640000x128, .f32⟩
  | .hbm, ⟨29, _⟩ => ⟨S640000x128, .i1⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S1, .i32⟩
  | .hbm, ⟨42, _⟩ => ⟨S_, .i32⟩
  | .hbm, ⟨43, _⟩ => ⟨S640000x1, .i32⟩
  | .hbm, ⟨44, _⟩ => ⟨S640000x1, .i1⟩
  | .hbm, ⟨45, _⟩ => ⟨S1x1, .i32⟩
  | .hbm, ⟨46, _⟩ => ⟨S640000x1, .i32⟩
  | .hbm, ⟨47, _⟩ => ⟨S640000x1, .i1⟩
  | .hbm, ⟨48, _⟩ => ⟨S640000x1, .i1⟩
  | .hbm, ⟨49, _⟩ => ⟨S_, .i1⟩
  | .hbm, ⟨50, _⟩ => ⟨S640000, .i1⟩
  | .hbm, ⟨51, _⟩ => ⟨S640000x128, .f32⟩
  | .hbm, ⟨52, _⟩ => ⟨S640000x128, .i1⟩
  | .hbm, ⟨53, _⟩ => ⟨S_, .f32⟩
  | .hbm, ⟨54, _⟩ => ⟨S640000x128, .f32⟩
  | .hbm, ⟨55, _⟩ => ⟨S640000x128, .f32⟩
  | .hbm, ⟨56, _⟩ => ⟨S640000x128, .f32⟩
  | .hbm, ⟨57, _⟩ => ⟨S_, .f32⟩
  | .hbm, ⟨58, _⟩ => ⟨S100000x128, .f32⟩
  | .hbm, ⟨59, _⟩ => ⟨S640000x1, .i32⟩
  | .hbm, ⟨60, _⟩ => ⟨S100000x128, .f32⟩
  | .hbm, ⟨61, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S384x128, .f32⟩
  | .local _ .vmem, ⟨7, _⟩ => ⟨S128, .f32⟩
  | .local _ .vmem, ⟨8, _⟩ => ⟨S384x128, .f32⟩
  | .local _ .vmem, ⟨9, _⟩ => ⟨S128, .f32⟩
  | .local _ .vmem, ⟨10, _⟩ => ⟨S4000x128, .f32⟩
  | .local _ .vmem, ⟨11, _⟩ => ⟨S4000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_cst : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  concatenates_S4000x128_S4000x128_S4000x128_S4000x384_d1 : Shape.Concatenates [S4000x128, S4000x128, S4000x128] S4000x384 1
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  dot_S4000x384_S384x128_S4000x128_1_0_0_1_n_n_wf : DotDims.WF S4000x384 S384x128 S4000x128 [1] [0] [0] [1] [] []
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .f32 = 32 ∨ (Rect.block (s := S640000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .f32 = 32 ∨ (Rect.block (s := S640000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S640000x128.size a
  hwx0_2 : ∀ i : grid0.Coords, EltTy.bits .f32 = 32 ∨ (Rect.block (s := S640000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x128.size a ≤ S384x128.size a
  hwx0_5 : ∀ i : grid0.Coords, EltTy.bits .f32 = 32 ∨ (Rect.block (s := S384x128) S384x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S640000x128.size a
  hwx0_7 : ∀ i : grid0.Coords, EltTy.bits .f32 = 32 ∨ (Rect.block (s := S640000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S4000x384_S384x128_S4000x128_1_0_0_1_n_n : DotDims S4000x384 S384x128 S4000x128 where
  lhsContracting := [1]
  rhsContracting := [0]
  lhsNonContracting := [0]
  rhsNonContracting := [1]
  lhsBatch := []
  rhsBatch := []
  wf := dot_S4000x384_S384x128_S4000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v5) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S640000x128 : Shape := ⟨2, ![640000, 128]⟩
abbrev S640000 : Shape := ⟨1, ![640000]⟩
abbrev S384x128 : Shape := ⟨2, ![384, 128]⟩
abbrev S128 : Shape := ⟨1, ![128]⟩
abbrev S128x128 : Shape := ⟨2, ![128, 128]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x128, .f32⟩
  | .hbm, ⟨5, _⟩ => ⟨S128, .f32⟩
  | .hbm, ⟨6, _⟩ => ⟨S384x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S640000x384, .f32⟩
  | .hbm, ⟨29, _⟩ => ⟨S640000x128, .f32⟩
  | .hbm, ⟨30, _⟩ => ⟨S1x128, .f32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S640000x128, .f32⟩
  | .hbm, ⟨35, _⟩ => ⟨S640000x128, .f32⟩
  | .hbm, ⟨36, _⟩ => ⟨S640000x128, .f32⟩
  | .hbm, ⟨37, _⟩ => ⟨S1x128, .f32⟩
  | .hbm, ⟨38, _⟩ => ⟨S640000x128, .f32⟩
  | .hbm, ⟨39, _⟩ => ⟨S640000x128, .f32⟩
  | .hbm, ⟨40, _⟩ => ⟨S_, .f32⟩
  | .hbm, ⟨41, _⟩ => ⟨S640000x128, .f32⟩
  | .hbm, ⟨42, _⟩ => ⟨S640000x128, .f32⟩
  | .hbm, ⟨43, _⟩ => ⟨S640000x128, .f32⟩
  | .hbm, ⟨44, _⟩ => ⟨S_, .f32⟩
  | .hbm, ⟨45, _⟩ => ⟨S100000x128, .f32⟩
  | .hbm, ⟨46, _⟩ => ⟨S640000x1, .i32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_cst : Ref sig .tc := ⟨.hbm, 52, rfl⟩
abbrev main_call2_v0 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  dot_S640000x384_S384x128_S640000x128_1_0_0_1_n_n_wf : DotDims.WF S640000x384 S384x128 S640000x128 [1] [0] [0] [1] [] []
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.PreRange.lean ====
import proofs.«406122_j46643344835303_1_alg».proof.Pre_finite_inputs
import proofs.«406122_j46643344835303_1_alg».proof.Proof.Gen.Pre_finite_inputs
import Idealize.ShloMosaic.PureOps.Ideal
import Idealize.ShloMosaic.Lib.ReduceAll
import Idealize.ShloMosaic.Lib.StableHlo.Predicate

noncomputable section

namespace Cert.PreRange

open Idealize.ShloMosaic Cert.Pre_finite_inputs

/-- Every entry of an index array, read as a signed integer, is a valid row index of an array of 100000 rows in the
    sense of indexing from either end: at least -100000 and below 100000. -/
def InRange (idx : IVec S640000 32) : Prop :=
  ∀ e : S640000.Idx, (-100000 : Int) ≤ (idx e).toInt ∧ (idx e).toInt < 100000

/-- The scalar shape's one index. -/
abbrev pt : S_.Idx := fun a => a.elim0

/-- The scalar shape has one index. -/
theorem scalar_subsingleton : Subsingleton S_.Idx := ⟨fun a b => funext fun d => d.elim0⟩

/-- The word the precondition prints for the lower end reads, signed, as -100000. -/
theorem toInt_lo : (4294867296#32 : BitVec 32).toInt = -100000 := by decide

/-- The word for the upper end reads as 100000. -/
theorem toInt_hi : (100000#32 : BitVec 32).toInt = 100000 := by decide

/-- A whole-array "at least the constant" that came out true says so of every entry, read signed. -/
theorem sge_all (idx : IVec S640000 32) (c : BitVec 32) (hb : S_.BroadcastsInDim S640000 (![] : Fin 0 → Fin S640000.rank))
    (hr : S640000.ReducesTo [0] S_) (hu : 0 < S_.numel)
    (h : Host.reduce IntOp.andi (cmpi .sge idx (broadcastInDim S640000 ![] hb (constantI S_ 32 c))) (constantI S_ 1 1#1) hr hu
      pt = 1#1) (e : S640000.Idx) : c.toInt ≤ (idx e).toInt := by
  haveI := scalar_subsingleton
  have h1 := Host.reduce_andi_all _ _ hr hu _ h e
  exact IntOp.cmpi_sge.1 h1

/-- A whole-array "below the constant" that came out true says so of every entry, read signed. -/
theorem slt_all (idx : IVec S640000 32) (c : BitVec 32) (hb : S_.BroadcastsInDim S640000 (![] : Fin 0 → Fin S640000.rank))
    (hr : S640000.ReducesTo [0] S_) (hu : 0 < S_.numel)
    (h : Host.reduce IntOp.andi (cmpi .slt idx (broadcastInDim S640000 ![] hb (constantI S_ 32 c))) (constantI S_ 1 1#1) hr hu
      pt = 1#1) (e : S640000.Idx) : (idx e).toInt < c.toInt := by
  haveI := scalar_subsingleton
  have h1 := Host.reduce_andi_all _ _ hr hu _ h e
  exact IntOp.cmpi_slt.1 h1

/-- The printed precondition, all ones, says in particular that both index arrays are in range: its last four
    conjuncts are the four whole-array comparisons. -/
theorem of_pre (a0 : FVec Ideal S100000x128 .f32) (a1 : FVec Ideal S640000x128 .f32) (a2 a3 : IVec S640000 32)
    (a4 : FVec Ideal S384x128 .f32) (a5 : FVec Ideal S128 .f32) (a6 : FVec Ideal S384x128 .f32) (a7 : FVec Ideal S128 .f32)
    (a8 : FVec Ideal S128x128 .f32) (a9 : FVec Ideal S128 .f32)
    (h : Cert.Pre_finite_inputs.fn (F := Ideal) a0 a1 a2 a3 a4 a5 a6 a7 a8 a9 = fun _ => 1#1) :
    InRange a2 ∧ InRange a3 := by
  have h0 := congrFun h pt
  dsimp only [fn, fn_part1, fn_part2, fn_part3] at h0
  -- the result is a chain of conjunctions: peel the last four conjuncts off, leaving the float part unopened
  obtain ⟨h50, h53⟩ := IntOp.andi_eq_one.1 h0
  obtain ⟨h46, h49⟩ := IntOp.andi_eq_one.1 h50
  obtain ⟨h42, h45⟩ := IntOp.andi_eq_one.1 h46
  obtain ⟨_, h41⟩ := IntOp.andi_eq_one.1 h42
  refine ⟨fun e => ⟨?_, ?_⟩, fun e => ⟨?_, ?_⟩⟩
  · have := sge_all a2 _ _ _ _ h41 e
    rwa [toInt_lo] at this
  · have := slt_all a2 _ _ _ _ h45 e
    rwa [toInt_hi] at this
  · have := sge_all a3 _ _ _ _ h49 e
    rwa [toInt_lo] at this
  · have := slt_all a3 _ _ _ _ h53 e
    rwa [toInt_hi] at this

end Cert.PreRange

end
-- ==== Proof.TakeRows.lean ====
import proofs.«406122_j46643344835303_1_alg».proof.Proof.Gen.KernelIdeal
import proofs.«406122_j46643344835303_1_alg».proof.Proof.PreRange
import Idealize.ShloMosaic.Lib.ReduceAll
import Idealize.ShloMosaic.Lib.StableHlo.Predicate
import Idealize.ShloMosaic.Lib.ValueIdx

noncomputable section

namespace Cert.KernelIdeal.TakeRows

open Idealize.ShloMosaic Idealize.SL.Sem Cert.KernelIdeal Cert.KernelIdeal.Gen

variable {F : FTy → Type} [FloatOps F]

/-- The index array as the gather reads it: a negative entry moved up by the number of rows, laid out as one column. -/
def wrapped (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 100000#32))) idx)

/-- Per row, whether the moved index is a row of the table: at least 0 and at most 99999. -/
def inTable (i5 : IVec S640000x1 32) : IVec S640000 1 :=
  (fun x v => Host.reduce IntOp.andi x v reducesTo_S640000x1_S640000_d1 h_S_)
    (andi (cmpi .sge i5 (broadcastInDim S640000x1 ![] bcast_S_S640000x1 (constantI S_ 32 0#32)))
      (cmpi .sle i5 (broadcastInDim S640000x1 ![0, 1] bcast_S1x1_S640000x1_0_1 (broadcastInDim S1x1 ![1] bcast_S1_S1x1_1 (constantI S1 32 99999#32)))))
    (constantI S_ 1 1#1)

/-- The kernel program's row gather: the gathered row where the moved index is a row of the table, a row of the
    fill word elsewhere. -/
def rowsOrFill (x : FVec F S100000x128 .f32) (idx : IVec S640000 32) : FVec F S640000x128 .f32 :=
  select (broadcastInDim S640000x128 ![0] bcast_S640000_S640000x128_0 (inTable (wrapped idx)))
    (Host.gather gather_S100000x128_S640000x1_S640000x128_1_0_n_n_0_1_1128 x (wrapped idx))
    (broadcastInDim S640000x128 ![] bcast_S_S640000x128 (constant S_ .f32 0x7FC00000#32))

/-- A left fold by `and` that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hf => by
    rw [List.foldl_cons]
    exact foldl_andi_one f l _ (IntOp.andi_eq_one.2 ⟨hi, hf a List.mem_cons_self⟩) (fun n hn => hf n (List.mem_cons_of_mem _ hn))

/-- An and-reduction from 1 of an array of bits that are all 1 is 1 at every result index, whatever the reduced axes. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_one x _ _ hinit (fun i _ => hx i)

/-- A word between -100000 and 99999, moved up by 100000 when negative, is between 0 and 99999: the sum does not
    leave the signed 32-bit range, so it is the integers' sum. -/
theorem moved_in_table (w : BitVec 32) (h1 : (-100000 : Int) ≤ w.toInt) (h2 : w.toInt < 100000) :
    IntOp.andi
      (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  have z0 : (0#32 : BitVec 32).toInt = 0 := by decide
  have z1 : (99999#32 : BitVec 32).toInt = 99999 := by decide
  have z2 : (100000#32 : BitVec 32).toInt = 100000 := by decide
  rw [IntOp.andi_eq_one, IntOp.cmpi_sge, IntOp.cmpi_sle, z0, z1]
  unfold Scalar.select
  split
  · next hc =>
    have hneg : w.toInt < 0 := by have := IntOp.cmpi_slt.1 hc; rwa [z0] at this
    have hsum : (IntOp.addi w 100000#32).toInt = w.toInt + 100000 := by
      show (w + 100000#32).toInt = _
      rw [BitVec.toInt_add, z2]
      exact Int.bmod_eq_of_le (by omega) (by omega)
    omega
  · next hc =>
    have hnn : ¬ w.toInt < 0 := fun hlt => hc (IntOp.cmpi_slt.2 (by rw [z0]; exact hlt))
    omega

/-- The moved index at a position of the column is the select on one entry of the index array. -/
theorem wrapped_apply (idx : IVec S640000 32) (i : S640000x1.Idx) :
    ∃ e : S640000.Idx, wrapped idx i
      = Scalar.select (IntOp.cmpi .slt (idx e) 0#32) (IntOp.addi (idx e) 100000#32) (idx e) := ⟨_, rfl⟩

/-- With every index in range, every row's moved index is a row of the table. -/
theorem inTable_wrapped (idx : IVec S640000 32) (h : Cert.PreRange.InRange idx) (e : S640000.Idx) :
    inTable (wrapped idx) e = 1#1 := by
  unfold inTable
  refine reduce_andi_one _ _ _ _ rfl (fun i => ?_) e
  obtain ⟨e', he'⟩ := wrapped_apply idx i
  show IntOp.andi (IntOp.cmpi .sge (wrapped idx i) 0#32) (IntOp.cmpi .sle (wrapped idx i) 99999#32) = 1#1
  rw [he']
  exact moved_in_table _ (h e').1 (h e').2

/-- The row mask laid along the 128 columns reads, at every position, the mask at some row. -/
theorem mask_apply (m : IVec S640000 1) (j : S640000x128.Idx) :
    ∃ e : S640000.Idx, broadcastInDim S640000x128 ![0] bcast_S640000_S640000x128_0 m j = m e := ⟨_, rfl⟩

/-- With every index in range the moved index is a row of the table at every entry, so nothing is filled: the
    kernel program's row gather is the plain gather at the moved index. -/
theorem rowsOrFill_eq (x : FVec F S100000x128 .f32) (idx : IVec S640000 32) (h : Cert.PreRange.InRange idx) :
    rowsOrFill x idx = Host.gather gather_S100000x128_S640000x1_S640000x128_1_0_n_n_0_1_1128 x (wrapped idx) := by
  funext j
  obtain ⟨e, he⟩ := mask_apply (inTable (wrapped idx)) j
  unfold rowsOrFill
  rw [ValueIdx.select_apply, he, inTable_wrapped idx h e, ValueIdx.select_one]

end Cert.KernelIdeal.TakeRows

end
-- ==== Proof.HostChain.lean ====
import proofs.«406122_j46643344835303_1_alg».proof.Proof.Gen.KernelIdeal.Frame
import proofs.«406122_j46643344835303_1_alg».proof.Proof.TakeRows
import Idealize.ShloMosaic.Lib.StableHlo.Run

set_option maxRecDepth 16384

/-!
  What each of the two regions finds in its input arrays, as terms over the memory the program was launched from.

  The program's first two stretches of host operations are the two row gathers (by the source index and by the
  destination index); they write `main_v0` and `main_v1` and touch no argument. The first region then reads those two,
  the edge features and the four parameters of the two message layers, and writes `main_v2`. The third stretch is the
  segment sum: `main_v5` is the scatter-add, into an array of zeros, of `main_v2` at the destination index. The second
  region reads `main_v5`, the node features and the two parameters of the update layer.
-/

noncomputable section

namespace Cert.KernelIdeal.HostChain

open Idealize.ShloMosaic Idealize.ShloMosaic.TcCoe Idealize.SL.Sem Idealize.ShloMosaic.StableHlo
open Cert.KernelIdeal Cert.KernelIdeal.Gen Cert.KernelIdeal.TakeRows

variable {F : FTy → Type} [FloatOps F]
variable (m : (ℓ : Loc nD τ sig) → Buf (Elt F) ℓ) (ρ : Dev nD → PrngReg)

/-- A stretch of host operations leaves a buffer it does not write as it was. -/
local macro "unwritten_by" l:ident : tactic =>
  `(tactic| exact StableHlo.after_of_forall_not_mem _ _ (List.forall_iff_forall_mem.mp (by
      simp only [$l:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The first region's entry -/

/-- The rows gathered by the source index: the first stretch's result, which the second stretch does not write. -/
theorem entry0_v0 (c : Dev nD) :
    W2 m ρ c (Proc.devRef .tc main_v0) = rowsOrFill (m ((c : Thread nD τ).loc main_arg0)) (m ((c : Thread nD τ).loc main_arg2)) :=
  calc W2 m ρ c (Proc.devRef .tc main_v0)
    _ = W1 m ρ c (Proc.devRef .tc main_v0) := by unwritten_by hostOps0_1
    _ = rowsOrFill (m ((c : Thread nD τ).loc main_arg0)) (m ((c : Thread nD τ).loc main_arg2)) := by
        show StableHlo.after hostOps0 (W0 m ρ c) (Proc.devRef .tc main_v0) = _
        simp only [hostOps0]
        after_results_simp
        simp only [TRef.toBuf, TRef.ofBuf, cast_eq]
        unfold rowsOrFill inTable wrapped
        rfl

/-- The rows gathered by the destination index: the second stretch's result, from arguments the first stretch
    does not write. -/
theorem entry0_v1 (c : Dev nD) :
    W2 m ρ c (Proc.devRef .tc main_v1) = rowsOrFill (m ((c : Thread nD τ).loc main_arg0)) (m ((c : Thread nD τ).loc main_arg3)) := by
  show StableHlo.after hostOps0_1 (StableHlo.after hostOps0 (W0 m ρ c)) (Proc.devRef .tc main_v1) = _
  simp only [hostOps0_1, hostOps0]
  after_results_simp
  simp only [TRef.toBuf, TRef.ofBuf, cast_eq]
  unfold rowsOrFill inTable wrapped
  rfl

/-- Neither gather writes the edge features. -/
theorem entry0_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := by unwritten_by hostOps0_1
    _ = W0 m ρ c (Proc.devRef .tc main_arg1) := by unwritten_by hostOps0
    _ = m ((c : Thread nD τ).loc main_arg1) := rfl

/-- Neither gather writes the forward layer's weights. -/
theorem entry0_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by unwritten_by hostOps0_1
    _ = W0 m ρ c (Proc.devRef .tc main_arg4) := by unwritten_by hostOps0
    _ = m ((c : Thread nD τ).loc main_arg4) := rfl

/-- Neither gather writes the forward layer's bias. -/
theorem entry0_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := by unwritten_by hostOps0_1
    _ = W0 m ρ c (Proc.devRef .tc main_arg5) := by unwritten_by hostOps0
    _ = m ((c : Thread nD τ).loc main_arg5) := rfl

/-- Neither gather writes the reverse layer's weights. -/
theorem entry0_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := by unwritten_by hostOps0_1
    _ = W0 m ρ c (Proc.devRef .tc main_arg6) := by unwritten_by hostOps0
    _ = m ((c : Thread nD τ).loc main_arg6) := rfl

/-- Neither gather writes the reverse layer's bias. -/
theorem entry0_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := by unwritten_by hostOps0_1
    _ = W0 m ρ c (Proc.devRef .tc main_arg7) := by unwritten_by hostOps0
    _ = m ((c : Thread nD τ).loc main_arg7) := rfl

/-- Neither gather writes the destination index. -/
theorem entry0_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := by unwritten_by hostOps0_1
    _ = W0 m ρ c (Proc.devRef .tc main_arg3) := by unwritten_by hostOps0
    _ = m ((c : Thread nD τ).loc main_arg3) := rfl

/-- Neither gather writes the node features. -/
theorem entry0_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := by unwritten_by hostOps0_1
    _ = W0 m ρ c (Proc.devRef .tc main_arg0) := by unwritten_by hostOps0
    _ = m ((c : Thread nD τ).loc main_arg0) := rfl

/-! ## The second region's entry -/

/-- What was aggregated: the scatter-add, into zeros, of the first region's output at the destination index. -/
theorem entry1_v5 (c : Dev nD) :
    W4 m ρ c (Proc.devRef .tc main_v5)
      = Host.scatterAdd scatter_S100000x128_S640000x1_S640000x128_1_0_0_1
          (broadcastInDim S100000x128 ![] bcast_S_S100000x128 (constant S_ .f32 0x00000000#32))
          (broadcastInDim S640000x1 ![0] bcast_S640000_S640000x1_0 (m ((c : Thread nD τ).loc main_arg3)))
          ((dat0 (V2 m ρ) c).arrAt 7 cfg0.N) := by
  have h3 : W3 m ρ c (Proc.devRef .tc main_arg3) = m ((c : Thread nD τ).loc main_arg3) :=
    (W3_of_ne m ρ c main_arg3 (by decide)).trans (entry0_main_arg3 m ρ c)
  have h2 : W3 m ρ c (Proc.devRef .tc main_v2) = (dat0 (V2 m ρ) c).arrAt 7 cfg0.N := W3_arr m ρ c 7
  show StableHlo.after hostOps1 (W3 m ρ c) (Proc.devRef .tc main_v5) = _
  simp only [hostOps1]
  after_results
  rw [h3, h2]

/-- The second region finds the node features as launched: it leaves them so, and they end as launched. -/
theorem entry1_main_arg0 (c : Dev nD) : W4 m ρ c (Proc.devRef .tc main_arg0) = m ((c : Thread nD τ).loc main_arg0) :=
  (((W5_arr m ρ c 1).trans (((dat1 (V4 m ρ) c).arrAt_in 1 rfl _).trans (A_eq1 (V4 m ρ) c 1))).symm).trans (W5_main_arg0 m ρ c)

/-- The second region finds the update layer's weights as launched: it leaves them so, and they end as launched. -/
theorem entry1_main_arg8 (c : Dev nD) : W4 m ρ c (Proc.devRef .tc main_arg8) = m ((c : Thread nD τ).loc main_arg8) :=
  (((W5_arr m ρ c 2).trans (((dat1 (V4 m ρ) c).arrAt_in 2 rfl _).trans (A_eq1 (V4 m ρ) c 2))).symm).trans (W5_main_arg8 m ρ c)

/-- The second region finds the update layer's bias as launched: it leaves them so, and they end as launched. -/
theorem entry1_main_arg9 (c : Dev nD) : W4 m ρ c (Proc.devRef .tc main_arg9) = m ((c : Thread nD τ).loc main_arg9) :=
  (((W5_arr m ρ c 3).trans (((dat1 (V4 m ρ) c).arrAt_in 3 rfl _).trans (A_eq1 (V4 m ρ) c 3))).symm).trans (W5_main_arg9 m ρ c)

end Cert.KernelIdeal.HostChain

end
-- ==== Proof.Spec.lean ====
/-
  The two layers of the message-passing step as functions of whole arrays, index by index, over the extended reals.

  An edge `e` reads the row `[a e | b e | c e]` of 384 entries: the features of its source node, of its
  destination node, and its own (`cat3`). Its message is the sum of two dense layers of that row, each followed by
  the positive part: `msg e j = max (∑ k, row k * Wm k j + bm j) 0 + max (∑ k, row k * Wr k j + br j) 0`.
  A node `n` adds to its features the positive part of one dense layer of what was aggregated at it:
  `upd n j = nf n j + max (∑ k, agg n k * Wu k j + bu j) 0`.
  Sums over the extended reals are commutative and associative, so neither the order in which a sum is taken nor
  how the rows are tiled matters; no law that needs finiteness is used.
-/
import Idealize.ShloMosaic.PureOps.Ideal
import Idealize.ShloMosaic.Lib.ValueIdx

noncomputable section

namespace Cert.Spec

open Idealize.ShloMosaic Idealize.ShloMosaic.ValueIdx

/-- Column `k` of the row `[a e | b e | c e]`: the three 128-wide pieces side by side. -/
def cat3 (a b c : (⟨2, ![640000, 128]⟩ : Shape).Idx → EReal) (e : Fin 640000) (k : Fin 384) : EReal :=
  if h : k.val < 128 then a (ix2 e ⟨k.val, h⟩)
  else if h' : k.val < 256 then b (ix2 e ⟨k.val - 128, by omega⟩)
  else c (ix2 e ⟨k.val - 256, by omega⟩)

/-- A dense layer of a row of 384 entries at output column `j`, followed by the positive part. -/
def layer384 (x : Fin 384 → EReal) (W : (⟨2, ![384, 128]⟩ : Shape).Idx → EReal) (b : (⟨1, ![128]⟩ : Shape).Idx → EReal)
    (j : Fin 128) : EReal :=
  max ((∑ k : Fin 384, x k * W (ix2 k j)) + b (ix1 j)) 0

/-- A dense layer of a row of 128 entries at output column `j`, followed by the positive part. -/
def layer128 (x : Fin 128 → EReal) (W : (⟨2, ![128, 128]⟩ : Shape).Idx → EReal) (b : (⟨1, ![128]⟩ : Shape).Idx → EReal)
    (j : Fin 128) : EReal :=
  max ((∑ k : Fin 128, x k * W (ix2 k j)) + b (ix1 j)) 0

/-- The messages: per edge, the forward layer and the reverse layer of the same row, added. -/
def msg (a b c : (⟨2, ![640000, 128]⟩ : Shape).Idx → EReal)
    (Wm : (⟨2, ![384, 128]⟩ : Shape).Idx → EReal) (bm : (⟨1, ![128]⟩ : Shape).Idx → EReal)
    (Wr : (⟨2, ![384, 128]⟩ : Shape).Idx → EReal) (br : (⟨1, ![128]⟩ : Shape).Idx → EReal) :
    (⟨2, ![640000, 128]⟩ : Shape).Idx → EReal :=
  fun i => layer384 (cat3 a b c (i 0)) Wm bm (i 1) + layer384 (cat3 a b c (i 0)) Wr br (i 1)

/-- The node update: the node's features plus the layer of what was aggregated at the node. -/
def upd (agg nf : (⟨2, ![100000, 128]⟩ : Shape).Idx → EReal)
    (Wu : (⟨2, ![128, 128]⟩ : Shape).Idx → EReal) (bu : (⟨1, ![128]⟩ : Shape).Idx → EReal) :
    (⟨2, ![100000, 128]⟩ : Shape).Idx → EReal :=
  fun i => nf i + layer128 (fun k => agg (ix2 (i 0) k)) Wu bu (i 1)

theorem msg_apply (a b c : (⟨2, ![640000, 128]⟩ : Shape).Idx → EReal)
    (Wm : (⟨2, ![384, 128]⟩ : Shape).Idx → EReal) (bm : (⟨1, ![128]⟩ : Shape).Idx → EReal)
    (Wr : (⟨2, ![384, 128]⟩ : Shape).Idx → EReal) (br : (⟨1, ![128]⟩ : Shape).Idx → EReal)
    (e : Fin 640000) (j : Fin 128) :
    msg a b c Wm bm Wr br (ix2 e j) = layer384 (cat3 a b c e) Wm bm j + layer384 (cat3 a b c e) Wr br j := rfl

theorem upd_apply (agg nf : (⟨2, ![100000, 128]⟩ : Shape).Idx → EReal)
    (Wu : (⟨2, ![128, 128]⟩ : Shape).Idx → EReal) (bu : (⟨1, ![128]⟩ : Shape).Idx → EReal)
    (n : Fin 100000) (j : Fin 128) :
    upd agg nf Wu bu (ix2 n j) = nf (ix2 n j) + layer128 (fun k => agg (ix2 n k)) Wu bu j := rfl

end Cert.Spec

end
-- ==== Proof.UpdArray.lean ====
import proofs.«406122_j46643344835303_1_alg».proof.Proof.Gen.KernelIdeal.Frame
import proofs.«406122_j46643344835303_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.UpdArray

open Idealize.ShloMosaic Idealize.ShloMosaic.TcCoe Idealize.SL.Sem Cert.KernelIdeal Cert.KernelIdeal.Gen
open Idealize.ShloMosaic.Pipeline (Dat Cfg Window)
open Idealize.ShloMosaic.ValueIdx

/-! ## The product's operand indices

The layer's product contracts the columns of the aggregated rows against the rows of the weights: at output
index `(r, c)` and contraction position `k` the left operand is read at `(r, k)` and the right at `(k, c)`. -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at `(p, q)`: the sum over the 128 contracted positions. -/
theorem product_apply (x : FVec Ideal S5000x128 .bf16) (w : FVec Ideal S128x128 .bf16) (p : Fin 5000) (q : Fin 128) :
    matmul (F := Ideal) dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's stored value at an index -/

/-- What the body stores, at row `p` and column `q` of its block: the node's feature plus the positive part of the
    dense layer of the aggregated row. -/
theorem pay_apply (agg nf : Vec Ideal S5000x128 .f32) (Wu : Vec Ideal S128x128 .f32) (bu : Vec Ideal S128 .f32)
    (p : Fin 5000) (q : Fin 128) :
    k1_pay1 (F := Ideal) agg nf Wu bu (ix2 p q)
      = nf (ix2 p q) + max ((∑ k : Fin 128, agg (ix2 p k) * Wu (ix2 k q)) + bu (ix1 q)) 0 := by
  unfold k1_pay1
  rw [addf_apply, maximumf_apply, addf_apply, broadcast_apply, product_apply, broadcastTo_1b_ab_apply,
    shapeCast_a_1a_apply]
  rw [shapeCast_self]
  show nf (ix2 p q) + max ((∑ k : Fin 128, agg (ix2 p k) * Wu (ix2 k q)) + bu (ix1 q)) (Ideal.ofBits .f32 0x00000000#32) = _
  rw [Ideal.ofBits_zero_f32]

/-- The node update at row `r` and column `q` of the array, from values read at indices that are that row's, the
    weights' column's and the bias's entry. -/
theorem upd_at (A NF : S100000x128.Idx → EReal) (W : S128x128.Idx → EReal) (B : S128.Idx → EReal)
    (r : Fin 100000) (q : Fin 128) (x0 : Fin 128 → S100000x128.Idx) (x1 : S100000x128.Idx)
    (x2 : Fin 128 → S128x128.Idx) (x3 : S128.Idx) (x4 : S100000x128.Idx)
    (h0 : ∀ k, x0 k = ix2 r k) (h1 : x1 = ix2 r q) (h2 : ∀ k, x2 k = ix2 k q) (h3 : x3 = ix1 q)
    (h4 : x4 = ix2 r q) :
    NF x1 + max ((∑ k : Fin 128, A (x0 k) * W (x2 k)) + B x3) 0 = Cert.Spec.upd A NF W B x4 := by
  subst h1 h3 h4
  simp only [h0, h2]
  rfl

/-! ## From the blocks to the array -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The index maps over the grid: the aggregated rows and the node features move with the output, block `t` of
    5000 rows at point `t`; the weights and the bias are one whole block at every point. -/
theorem block_indices : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) ≤ 19 ∧ win1_4.index t (1 : Fin 2) = 0 :=
  (by decide +kernel : ∀ t : Fin grid1.N, _)

/-- Every block of 5000 rows is some point's. -/
theorem block_onto : ∀ b : Fin 20, ∃ t : Fin cfg1.N, win1_4.index t = ![b.val, 0] :=
  (by decide +kernel : ∀ b : Fin 20, ∃ t : Fin grid1.N, win1_4.index t = ![b.val, 0])

/-- What point `t` writes back is block `t` of the node update of the arrays the region finds. -/
theorem flushed_eq (c : Dev nD) (t : Fin cfg1.N) :
    (dat1 (F := Ideal) V c).flushed 4 t
      = ((cfg1.win 4).blk t).view.read (Elt Ideal)
          (Cert.Spec.upd (V c main_v5) (V c main_arg0) (V c main_arg8) (V c main_arg9)) := by
  show (cfg1.win 4).cut (grid1.coords t) ((dat1 V c).after 4 t) = _
  rw [after1_4]
  unfold out1_4
  rw [View.canon_unit_zero zero2]
  simp only [View.ld_unit_zero (S := S5000x128) zero2, View.ld_unit_zero (S := S128x128) zero2,
    View.ld_unit_zero (S := S128) zero1]
  obtain ⟨a0, a1, n0, n1, w0, w1, b0, o0, o1⟩ := block_indices t
  funext j
  obtain ⟨p, q, rfl⟩ : ∃ (p : Fin 5000) (q : Fin 128), j = ix2 p q := ⟨j 0, j 1, eq_ix2 j⟩
  have hp : p.val < 5000 := p.isLt
  have hq : q.val < 128 := q.isLt
  refine (pay_apply (iblk1 V c 0 t) (iblk1 V c 1 t) (iblk1 V c 2 t) (iblk1 V c 3 t) p q).trans ?_
  have hr : win1_4.index t (0 : Fin 2) * 5000 + p.val < 100000 := by omega
  have e0 : ∀ k : Fin 128, ((cfg1.win 0).blk t).view.emb (ix2 p k)
      = ix2 (⟨win1_4.index t (0 : Fin 2) * 5000 + p.val, hr⟩ : Fin 100000) k := fun k => by
    funext a; apply Fin.ext
    match a with
    | ⟨0, _⟩ => show win1_0.index t (0 : Fin 2) * 5000 + 1 * p.val = win1_4.index t (0 : Fin 2) * 5000 + p.val; omega
    | ⟨1, _⟩ => show win1_0.index t (1 : Fin 2) * 128 + 1 * k.val = k.val; omega
  have e1 : ((cfg1.win 1).blk t).view.emb (ix2 p q)
      = ix2 (⟨win1_4.index t (0 : Fin 2) * 5000 + p.val, hr⟩ : Fin 100000) q := by
    funext a; apply Fin.ext
    match a with
    | ⟨0, _⟩ => show win1_1.index t (0 : Fin 2) * 5000 + 1 * p.val = win1_4.index t (0 : Fin 2) * 5000 + p.val; omega
    | ⟨1, _⟩ => show win1_1.index t (1 : Fin 2) * 128 + 1 * q.val = q.val; omega
  have e2 : ∀ k : Fin 128, ((cfg1.win 2).blk t).view.emb (ix2 k q) = ix2 k q := fun k => by
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  have e3 : ((cfg1.win 3).blk t).view.emb (ix1 q) = ix1 q := by
    funext a; apply Fin.ext
    match a with
    | ⟨0, _⟩ => show win1_3.index t (0 : Fin 1) * 128 + 1 * q.val = q.val; omega
  have e4 : ((cfg1.win 4).blk t).view.emb (ix2 p q)
      = ix2 (⟨win1_4.index t (0 : Fin 2) * 5000 + p.val, hr⟩ : Fin 100000) q := by
    funext a; apply Fin.ext
    match a with
    | ⟨0, _⟩ => show win1_4.index t (0 : Fin 2) * 5000 + 1 * p.val = win1_4.index t (0 : Fin 2) * 5000 + p.val; omega
    | ⟨1, _⟩ => show win1_4.index t (1 : Fin 2) * 128 + 1 * q.val = q.val; omega
  exact upd_at (V c main_v5) (V c main_arg0) (V c main_arg8) (V c main_arg9) ⟨_, hr⟩ q
    (fun k => ((cfg1.win 0).blk t).view.emb (ix2 p k)) (((cfg1.win 1).blk t).view.emb (ix2 p q))
    (fun k => ((cfg1.win 2).blk t).view.emb (ix2 k q)) (((cfg1.win 3).blk t).view.emb (ix1 q))
    (((cfg1.win 4).blk t).view.emb (ix2 p q)) e0 e1 e2 e3 e4

/-- An index of the array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v6).slice (win1_4.rect t)).set ↔ _
  rw [View.set_slice_whole, Rect.mem_set_unit]
  exact Iff.rfl

/-- Every index of the output array is in some point's block: row `r` is in block `r / 5000`. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := block_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The array the node-update region leaves in its output window, whatever the region finds on entry: the node
    update of the entry contents of its four input arrays. -/
theorem array_eq (c : Dev nD) :
    (dat1 (F := Ideal) V c).arrAt 4 cfg1.N
      = Cert.Spec.upd (V c main_v5) (V c main_arg0) (V c main_arg8) (V c main_arg9) :=
  (dat1 (F := Ideal) V c).arrAt_eq_of_cover 4
    (Cert.Spec.upd (V c main_v5) (V c main_arg0) (V c main_arg8) (V c main_arg9))
    (fun t _ => flushed_eq V c t) cover

end Cert.KernelIdeal.UpdArray

end
-- ==== Proof.MsgArray.lean ====
import proofs.«406122_j46643344835303_1_alg».proof.Proof.Gen.KernelIdeal.Frame
import proofs.«406122_j46643344835303_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MsgArray

open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-! ## The block product at an output index

The row block of 4000 rows by 384 columns times a weight block of 384 by 128: one contracted axis, no batch axis. At
output index `(p, q)` and contraction coordinate `k` the left operand is read at `(p, k)`, the right at `(k, q)`. -/

theorem lhs_axis0 (i : S4000x128.Idx) (r : dot_S4000x384_S384x128_S4000x128_1_0_0_1_n_n.contr.Idx) :
    (dot_S4000x384_S384x128_S4000x128_1_0_0_1_n_n.lhsIdx i r 0).val = (i 0).val := by
  unfold DotDims.lhsIdx
  rw [dif_neg (show ¬(0 : Fin S4000x384.rank) ∈ dot_S4000x384_S384x128_S4000x128_1_0_0_1_n_n.lhsBatch by decide), dif_pos (show (0 : Fin S4000x384.rank) ∈ dot_S4000x384_S384x128_S4000x128_1_0_0_1_n_n.lhsNonContracting by decide)]
  rfl
theorem lhs_axis1 (i : S4000x128.Idx) (r : dot_S4000x384_S384x128_S4000x128_1_0_0_1_n_n.contr.Idx) :
    (dot_S4000x384_S384x128_S4000x128_1_0_0_1_n_n.lhsIdx i r 1).val = (r ⟨0, by decide⟩).val :=
  dot_S4000x384_S384x128_S4000x128_1_0_0_1_n_n.lhsIdx_val_of_single rfl i r
theorem rhs_axis0 (i : S4000x128.Idx) (r : dot_S4000x384_S384x128_S4000x128_1_0_0_1_n_n.contr.Idx) :
    (dot_S4000x384_S384x128_S4000x128_1_0_0_1_n_n.rhsIdx i r 0).val = (r ⟨0, by decide⟩).val :=
  dot_S4000x384_S384x128_S4000x128_1_0_0_1_n_n.rhsIdx_val_of_single rfl i r
theorem rhs_axis1 (i : S4000x128.Idx) (r : dot_S4000x384_S384x128_S4000x128_1_0_0_1_n_n.contr.Idx) :
    (dot_S4000x384_S384x128_S4000x128_1_0_0_1_n_n.rhsIdx i r 1).val = (i 1).val := by
  unfold DotDims.rhsIdx
  rw [dif_neg (show ¬(1 : Fin S384x128.rank) ∈ dot_S4000x384_S384x128_S4000x128_1_0_0_1_n_n.rhsBatch by decide), dif_pos (show (1 : Fin S384x128.rank) ∈ dot_S4000x384_S384x128_S4000x128_1_0_0_1_n_n.rhsNonContracting by decide)]
  rfl

/-- Into the zero accumulator the product at `(p, q)` is the sum over the 384 columns of the row times the weight's
    column `q`. -/
theorem product_apply (X : FVec Ideal S4000x384 .bf16) (W : FVec Ideal S384x128 .bf16) (p : Fin 4000) (q : Fin 128) :
    matmul (F := Ideal) dot_S4000x384_S384x128_S4000x128_1_0_0_1_n_n none X W (constant (F := Ideal) S4000x128 .f32 0x00000000#32) (ix2 p q)
      = ∑ k : Fin 384, X (ix2 p k) * W (ix2 k q) := by
  simp only [matmul]
  rw [Ideal.matmul_constant_zero_apply, ← Equiv.sum_comp (contrEquiv1 dot_S4000x384_S384x128_S4000x128_1_0_0_1_n_n 384 rfl rfl).symm]
  refine Finset.sum_congr rfl fun k _ => ?_
  have hk := contrEquiv1_symm_val dot_S4000x384_S384x128_S4000x128_1_0_0_1_n_n 384 rfl rfl k
  have el : dot_S4000x384_S384x128_S4000x128_1_0_0_1_n_n.lhsIdx (ix2 p q) ((contrEquiv1 dot_S4000x384_S384x128_S4000x128_1_0_0_1_n_n 384 rfl rfl).symm k) = ix2 p k := funext fun a => Fin.ext (by
    match a with
    | ⟨0, _⟩ => exact lhs_axis0 _ _
    | ⟨1, _⟩ => exact (lhs_axis1 _ _).trans hk)
  have er : dot_S4000x384_S384x128_S4000x128_1_0_0_1_n_n.rhsIdx (ix2 p q) ((contrEquiv1 dot_S4000x384_S384x128_S4000x128_1_0_0_1_n_n 384 rfl rfl).symm k) = ix2 k q := funext fun a => Fin.ext (by
    match a with
    | ⟨0, _⟩ => exact (rhs_axis0 _ _).trans hk
    | ⟨1, _⟩ => exact rhs_axis1 _ _)
  rw [el, er]

/-! ## The bias row and the joined row -/

/-- A bias of 128 entries, made a one-row matrix and repeated down the 4000 rows, reads its entry `q` in every row. -/
theorem bias_apply (b : Vec Ideal S128 .f32) (p : Fin 4000) (q : Fin 128) :
    broadcastTo S4000x128 (shapeCast S1x128 b shapeCasts_S128_S1x128) broadcasts_S1x128_S4000x128 (ix2 p q) = b (ix1 q) := by
  rw [broadcastTo_1b_ab_apply, shapeCast_a_1a_apply]

/-- Row `p` of three blocks of 128 columns set side by side: column `k` comes from the first block below 128, from the
    second below 256, from the third from there on. -/
def rowCat (x0 x1 x2 : Vec Ideal S4000x128 .f32) (p : Fin 4000) (k : Fin 384) : EReal :=
  if h : k.val < 128 then x0 (ix2 p ⟨k.val, h⟩)
  else if h' : k.val < 256 then x1 (ix2 p ⟨k.val - 128, by omega⟩)
  else x2 (ix2 p ⟨k.val - 256, by omega⟩)

/-- The concatenation of the three blocks along the columns, read at `(p, k)`. -/
theorem concat_apply (x0 x1 x2 : Vec Ideal S4000x128 .f32) (p : Fin 4000) (k : Fin 384) :
    concatenate S4000x384 1 [⟨S4000x128, x0⟩, ⟨S4000x128, x1⟩, ⟨S4000x128, x2⟩] concatenates_S4000x128_S4000x128_S4000x128_S4000x384_d1 (ix2 p k)
      = rowCat x0 x1 x2 p k := by
  unfold rowCat
  by_cases h : k.val < 128
  · rw [dif_pos h]
    exact concatenate_apply_piece (1 : Fin S4000x384.rank) _ _ (ix2 p k) 0 (by show (0 : Nat) < 3; omega) S4000x128 x0 rfl rfl 0 rfl
      (ix2 p ⟨k.val, h⟩) (fun b hb => by
        match b with
        | ⟨0, _⟩ => rfl
        | ⟨1, _⟩ => exact absurd rfl hb) (by show 0 + k.val = k.val; omega)
  · rw [dif_neg h]
    by_cases h' : k.val < 256
    · rw [dif_pos h']
      exact concatenate_apply_piece (1 : Fin S4000x384.rank) _ _ (ix2 p k) 1 (by show (1 : Nat) < 3; omega) S4000x128 x1 rfl rfl 128 rfl
        (ix2 p ⟨k.val - 128, by omega⟩) (fun b hb => by
          match b with
          | ⟨0, _⟩ => rfl
          | ⟨1, _⟩ => exact absurd rfl hb) (by show 128 + (k.val - 128) = k.val; omega)
    · rw [dif_neg h']
      have hk : k.val < 384 := k.isLt
      exact concatenate_apply_piece (1 : Fin S4000x384.rank) _ _ (ix2 p k) 2 (by show (2 : Nat) < 3; omega) S4000x128 x2 rfl rfl 256 rfl
        (ix2 p ⟨k.val - 256, by omega⟩) (fun b hb => by
          match b with
          | ⟨0, _⟩ => rfl
          | ⟨1, _⟩ => exact absurd rfl hb) (by show 256 + (k.val - 256) = k.val; omega)

/-! ## The payload at an index -/

/-- What the body stores at `(p, q)` of its output block: the two layers of row `p` of the joined block, added. -/
theorem payload_apply (x0 x1 x2 : Vec Ideal S4000x128 .f32) (w3 w5 : Vec Ideal S384x128 .f32) (b4 b6 : Vec Ideal S128 .f32)
    (p : Fin 4000) (q : Fin 128) :
    k0_pay1 (F := Ideal) x0 x1 x2 w3 w5 b4 b6 (ix2 p q)
      = Cert.Spec.layer384 (rowCat x0 x1 x2 p) w3 b4 q + Cert.Spec.layer384 (rowCat x0 x1 x2 p) w5 b6 q := by
  unfold k0_pay1 Cert.Spec.layer384
  rw [shapeCast_self x0 shapeCasts_S4000x128_S4000x128, shapeCast_self x1 shapeCasts_S4000x128_S4000x128]
  show max (matmul (F := Ideal) dot_S4000x384_S384x128_S4000x128_1_0_0_1_n_n none (truncf .bf16 (concatenate S4000x384 1 [⟨S4000x128, x0⟩, ⟨S4000x128, x1⟩, ⟨S4000x128, x2⟩] concatenates_S4000x128_S4000x128_S4000x128_S4000x384_d1) bitsLt_bf16_f32) (truncf .bf16 w3 bitsLt_bf16_f32) (constant (F := Ideal) S4000x128 .f32 0x00000000#32) (ix2 p q)
        + broadcastTo S4000x128 (shapeCast S1x128 b4 shapeCasts_S128_S1x128) broadcasts_S1x128_S4000x128 (ix2 p q)) (Ideal.ofBits .f32 0x00000000#32)
      + max (matmul (F := Ideal) dot_S4000x384_S384x128_S4000x128_1_0_0_1_n_n none (truncf .bf16 (concatenate S4000x384 1 [⟨S4000x128, x0⟩, ⟨S4000x128, x1⟩, ⟨S4000x128, x2⟩] concatenates_S4000x128_S4000x128_S4000x128_S4000x384_d1) bitsLt_bf16_f32) (truncf .bf16 w5 bitsLt_bf16_f32) (constant (F := Ideal) S4000x128 .f32 0x00000000#32) (ix2 p q)
        + broadcastTo S4000x128 (shapeCast S1x128 b6 shapeCasts_S128_S1x128) broadcasts_S1x128_S4000x128 (ix2 p q)) (Ideal.ofBits .f32 0x00000000#32)
      = _
  rw [product_apply, product_apply, bias_apply, bias_apply, Ideal.ofBits_zero_f32]
  simp only [truncf_apply]
  have hsum : ∀ W : Vec Ideal S384x128 .f32,
      (∑ k : Fin 384, concatenate S4000x384 1 [⟨S4000x128, x0⟩, ⟨S4000x128, x1⟩, ⟨S4000x128, x2⟩] concatenates_S4000x128_S4000x128_S4000x128_S4000x384_d1 (ix2 p k) * W (ix2 k q)) = ∑ k : Fin 384, rowCat x0 x1 x2 p k * W (ix2 k q) :=
    fun W => Finset.sum_congr rfl fun k _ => congrArg (· * W (ix2 k q)) (concat_apply x0 x1 x2 p k)
  exact congrArg₂ (· + ·) (congrArg (fun s => max (s + b4 (ix1 q)) 0) (hsum w3)) (congrArg (fun s => max (s + b6 (ix1 q)) 0) (hsum w5))

/-! ## From the blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- The payload at any index of the block, by its two coordinates. -/
theorem payload_at (x0 x1 x2 : Vec Ideal S4000x128 .f32) (w3 w5 : Vec Ideal S384x128 .f32) (b4 b6 : Vec Ideal S128 .f32)
    (y : S4000x128.Idx) :
    k0_pay1 (F := Ideal) x0 x1 x2 w3 w5 b4 b6 y
      = Cert.Spec.layer384 (rowCat x0 x1 x2 (y 0)) w3 b4 (y 1) + Cert.Spec.layer384 (rowCat x0 x1 x2 (y 0)) w5 b6 (y 1) := by
  obtain ⟨p, q, rfl⟩ : ∃ (p : Fin 4000) (q : Fin 128), y = ix2 p q := ⟨y 0, y 1, eq_ix2 y⟩
  exact payload_apply x0 x1 x2 w3 w5 b4 b6 p q

/-- The index maps, decided over the 160 points: at point `t` the three row windows and the output window are at block
    `t` of the rows and block 0 of the columns; the weights and the biases are one whole block at every point. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! Each input block, read where the point's rectangle says: a block's element sits in its array, on each axis, at the
block index times the block's size plus its own coordinate. Element `(p, q)` of a row block at point `t` is row
`4000 t + p`, column `q` of the array; a weight or bias block is its whole array. -/

theorem rows_read0 (c : Dev nD) (t : Fin cfg0.N) (p : Fin 4000) (q : Fin 128) (r : Fin 640000)
    (hr : r.val = t.val * 4000 + p.val) : iblk0 V c 0 t (ix2 p q) = V c main_v0 (ix2 r q) := by
  obtain ⟨e00, e01, e10, e11, e20, e21, -⟩ := index_facts t
  show V c main_v0 (((cfg0.win 0).blk t).view.emb (ix2 p q)) = V c main_v0 (ix2 r q)
  refine congrArg _ (funext fun a => Fin.ext ?_)
  match a with
  | ⟨0, _⟩ => show win0_0.index t (0 : Fin 2) * 4000 + 1 * p.val = r.val; omega
  | ⟨1, _⟩ => show win0_0.index t (1 : Fin 2) * 128 + 1 * q.val = q.val; omega

theorem rows_read1 (c : Dev nD) (t : Fin cfg0.N) (p : Fin 4000) (q : Fin 128) (r : Fin 640000)
    (hr : r.val = t.val * 4000 + p.val) : iblk0 V c 1 t (ix2 p q) = V c main_v1 (ix2 r q) := by
  obtain ⟨e00, e01, e10, e11, e20, e21, -⟩ := index_facts t
  show V c main_v1 (((cfg0.win 1).blk t).view.emb (ix2 p q)) = V c main_v1 (ix2 r q)
  refine congrArg _ (funext fun a => Fin.ext ?_)
  match a with
  | ⟨0, _⟩ => show win0_1.index t (0 : Fin 2) * 4000 + 1 * p.val = r.val; omega
  | ⟨1, _⟩ => show win0_1.index t (1 : Fin 2) * 128 + 1 * q.val = q.val; omega

theorem rows_read2 (c : Dev nD) (t : Fin cfg0.N) (p : Fin 4000) (q : Fin 128) (r : Fin 640000)
    (hr : r.val = t.val * 4000 + p.val) : iblk0 V c 2 t (ix2 p q) = V c main_arg1 (ix2 r q) := by
  obtain ⟨e00, e01, e10, e11, e20, e21, -⟩ := index_facts t
  show V c main_arg1 (((cfg0.win 2).blk t).view.emb (ix2 p q)) = V c main_arg1 (ix2 r q)
  refine congrArg _ (funext fun a => Fin.ext ?_)
  match a with
  | ⟨0, _⟩ => show win0_2.index t (0 : Fin 2) * 4000 + 1 * p.val = r.val; omega
  | ⟨1, _⟩ => show win0_2.index t (1 : Fin 2) * 128 + 1 * q.val = q.val; omega

theorem weight_read3 (c : Dev nD) (t : Fin cfg0.N) :
    (iblk0 V c 3 t : S384x128.Idx → EReal) = V c main_arg4 := by
  obtain ⟨-, -, -, -, -, -, e30, e31, -, e50, e51, -⟩ := index_facts t
  funext y
  show V c main_arg4 (((cfg0.win 3).blk t).view.emb y) = V c main_arg4 y
  refine congrArg _ (funext fun a => Fin.ext ?_)
  match a with
  | ⟨0, _⟩ => show win0_3.index t (0 : Fin 2) * 384 + 1 * (y 0).val = (y 0).val; omega
  | ⟨1, _⟩ => show win0_3.index t (1 : Fin 2) * 128 + 1 * (y 1).val = (y 1).val; omega

theorem weight_read5 (c : Dev nD) (t : Fin cfg0.N) :
    (iblk0 V c 5 t : S384x128.Idx → EReal) = V c main_arg6 := by
  obtain ⟨-, -, -, -, -, -, e30, e31, -, e50, e51, -⟩ := index_facts t
  funext y
  show V c main_arg6 (((cfg0.win 5).blk t).view.emb y) = V c main_arg6 y
  refine congrArg _ (funext fun a => Fin.ext ?_)
  match a with
  | ⟨0, _⟩ => show win0_5.index t (0 : Fin 2) * 384 + 1 * (y 0).val = (y 0).val; omega
  | ⟨1, _⟩ => show win0_5.index t (1 : Fin 2) * 128 + 1 * (y 1).val = (y 1).val; omega

theorem bias_read4 (c : Dev nD) (t : Fin cfg0.N) :
    (iblk0 V c 4 t : S128.Idx → EReal) = V c main_arg5 := by
  obtain ⟨-, -, -, -, -, -, -, -, e40, -, -, e60, -⟩ := index_facts t
  funext y
  show V c main_arg5 (((cfg0.win 4).blk t).view.emb y) = V c main_arg5 y
  refine congrArg _ (funext fun a => Fin.ext ?_)
  match a with
  | ⟨0, _⟩ => show win0_4.index t (0 : Fin 1) * 128 + 1 * (y 0).val = (y 0).val; omega

theorem bias_read6 (c : Dev nD) (t : Fin cfg0.N) :
    (iblk0 V c 6 t : S128.Idx → EReal) = V c main_arg7 := by
  obtain ⟨-, -, -, -, -, -, -, -, e40, -, -, e60, -⟩ := index_facts t
  funext y
  show V c main_arg7 (((cfg0.win 6).blk t).view.emb y) = V c main_arg7 y
  refine congrArg _ (funext fun a => Fin.ext ?_)
  match a with
  | ⟨0, _⟩ => show win0_6.index t (0 : Fin 1) * 128 + 1 * (y 0).val = (y 0).val; omega

/-- Two layers are equal when their rows, weights, biases and columns are. -/
theorem layer384_congr {x x' : Fin 384 → EReal} {W W' : (⟨2, ![384, 128]⟩ : Shape).Idx → EReal}
    {b b' : (⟨1, ![128]⟩ : Shape).Idx → EReal} {j j' : Fin 128} (hx : x = x') (hW : W = W') (hb : b = b') (hj : j = j') :
    Cert.Spec.layer384 x W b j = Cert.Spec.layer384 x' W' b' j' := by
  subst hx hW hb hj; rfl

/-- Row `p` of the three row blocks at point `t`, joined, is row `4000 t + p` of the three arrays, joined. -/
theorem rowCat_blocks (c : Dev nD) (t : Fin cfg0.N) (p : Fin 4000) (r : Fin 640000) (hr : r.val = t.val * 4000 + p.val) :
    rowCat (iblk0 V c 0 t) (iblk0 V c 1 t) (iblk0 V c 2 t) p = Cert.Spec.cat3 (V c main_v0) (V c main_v1) (V c main_arg1) r := by
  funext k
  unfold rowCat Cert.Spec.cat3
  by_cases h : k.val < 128
  · rw [dif_pos h, dif_pos h]; exact rows_read0 V c t p _ r hr
  · rw [dif_neg h, dif_neg h]
    by_cases h' : k.val < 256
    · rw [dif_pos h', dif_pos h']; exact rows_read1 V c t p _ r hr
    · rw [dif_neg h', dif_neg h']; exact rows_read2 V c t p _ r hr

/-- WHAT POINT `t` WRITES BACK is block `t` of the messages of the arrays the region finds on entry. -/
theorem flushed_eq (c : Dev nD) (t : Fin cfg0.N) :
    (dat0 (F := Ideal) V c).flushed 7 t
      = ((cfg0.win 7).blk t).view.read (Elt Ideal) (Cert.Spec.msg (V c main_v0) (V c main_v1) (V c main_arg1) (V c main_arg4) (V c main_arg5) (V c main_arg6) (V c main_arg7)) := by
  show (cfg0.win 7).cut (grid0.coords t) ((dat0 (F := Ideal) V c).after 7 t) = _
  rw [after0_7]
  unfold out0_7
  rw [View.canon_unit_zero zeros2]
  simp only [View.ld_unit_zero (S := S4000x128) zeros2, View.ld_unit_zero (S := S384x128) zeros2, View.ld_unit_zero (S := S128) zeros1]
  obtain ⟨e00, e01, e10, e11, e20, e21, e30, e31, e40, e50, e51, e60, e70, e71⟩ := index_facts t
  funext j
  show k0_pay1 (F := Ideal) (iblk0 V c 0 t) (iblk0 V c 1 t) (iblk0 V c 2 t) (iblk0 V c 3 t) (iblk0 V c 5 t) (iblk0 V c 4 t) (iblk0 V c 6 t) j
    = Cert.Spec.msg (V c main_v0) (V c main_v1) (V c main_arg1) (V c main_arg4) (V c main_arg5) (V c main_arg6) (V c main_arg7) (((cfg0.win 7).blk t).view.emb j)
  refine (payload_at _ _ _ _ _ _ _ j).trans ?_
  have hrow : ((((cfg0.win 7).blk t).view.emb j) 0).val = t.val * 4000 + (j 0).val := by
    show win0_7.index t (0 : Fin 2) * 4000 + 1 * (j 0).val = t.val * 4000 + (j 0).val; omega
  have hcol : (j 1 : Fin 128) = (((cfg0.win 7).blk t).view.emb j) 1 := Fin.ext (by
    show (j 1).val = win0_7.index t (1 : Fin 2) * 128 + 1 * (j 1).val; omega)
  have hx := rowCat_blocks V c t (j 0) ((((cfg0.win 7).blk t).view.emb j) 0) hrow
  exact congrArg₂ (· + ·)
    (layer384_congr hx (weight_read3 V c t) (bias_read4 V c t) hcol)
    (layer384_congr hx (weight_read5 V c t) (bias_read6 V c t) hcol)

/-- An index of the array is in point `t`'s block iff each coordinate is in the block's range on its axis. -/
theorem mem_block (t : Fin cfg0.N) (i : S640000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v2).slice (win0_7.rect t)).set ↔ _
  rw [View.set_slice_whole, Rect.mem_set_unit]
  exact Iff.rfl

/-- The 160 blocks of 4000 rows tile the 640000 rows: row `r` is in the block of point `r / 4000`. -/
theorem covered (i : S640000x128.Idx) :
    ∃ t : Fin cfg0.N, (cfg0.win 7).flush t = true ∧ i ∈ ((cfg0.win 7).blk t).view.set := by
  have hi0 : (i 0).val < 640000 := (i 0).isLt
  have hi1 : (i 1).val < 128 := (i 1).isLt
  have hN : cfg0.N = 160 := N_0
  have hlt : (i 0).val / 4000 < cfg0.N := by rw [hN]; omega
  obtain ⟨-, -, -, -, -, -, -, -, -, -, -, -, e70, e71⟩ := index_facts ⟨(i 0).val / 4000, hlt⟩
  have e70' : win0_7.index ⟨(i 0).val / 4000, hlt⟩ (0 : Fin 2) = (i 0).val / 4000 := e70
  refine ⟨⟨(i 0).val / 4000, hlt⟩, flush0_7 _, ?_⟩
  rw [mem_block]
  intro a
  match a with
  | ⟨0, _⟩ => show win0_7.index ⟨(i 0).val / 4000, hlt⟩ (0 : Fin 2) * 4000 ≤ (i 0).val ∧ (i 0).val < win0_7.index ⟨(i 0).val / 4000, hlt⟩ (0 : Fin 2) * 4000 + 4000; omega
  | ⟨1, _⟩ => show win0_7.index ⟨(i 0).val / 4000, hlt⟩ (1 : Fin 2) * 128 ≤ (i 1).val ∧ (i 1).val < win0_7.index ⟨(i 0).val / 4000, hlt⟩ (1 : Fin 2) * 128 + 128; omega

/-- The array the message region leaves in its output window, whatever the region finds on entry: the messages of
    the entry contents of its seven input arrays. -/
theorem array_eq (c : Dev nD) :
    (dat0 (F := Ideal) V c).arrAt 7 cfg0.N
      = Cert.Spec.msg (V c main_v0) (V c main_v1) (V c main_arg1) (V c main_arg4) (V c main_arg5) (V c main_arg6) (V c main_arg7) :=
  (dat0 (F := Ideal) V c).arrAt_eq_of_cover 7 (Cert.Spec.msg (V c main_v0) (V c main_v1) (V c main_arg1) (V c main_arg4) (V c main_arg5) (V c main_arg6) (V c main_arg7))
    (fun t _ => flushed_eq V c t) (fun i => covered i)

end Cert.KernelIdeal.MsgArray

end
-- ==== Proof.KernelValue.lean ====
import proofs.«406122_j46643344835303_1_alg».proof.Proof.HostChain
import proofs.«406122_j46643344835303_1_alg».proof.Proof.UpdArray
import proofs.«406122_j46643344835303_1_alg».proof.Proof.MsgArray

set_option maxRecDepth 16384

/-!
  The kernel program's result as one function of the launch memory.

  Reading the program backwards: the result array is what the node-update region leaves, the node update of what it
  finds on entry; what it finds aggregated is the scatter-add at the destination index of what the message region
  leaves, the messages of what THAT region finds; and what it finds are the two row gathers and the arguments.
  Where both index arrays are in range the row gathers fill nothing, so each is the plain gather at the moved index.
-/

noncomputable section

namespace Cert.KernelIdeal.KernelValue

open Idealize.ShloMosaic Idealize.ShloMosaic.TcCoe Idealize.SL.Sem
open Cert.KernelIdeal Cert.KernelIdeal.Gen Cert.KernelIdeal.TakeRows Cert.KernelIdeal.HostChain

variable (m : (ℓ : Loc nD τ sig) → Buf (Elt Ideal) ℓ) (ρ : Dev nD → PrngReg)

/-- The messages and the node update respect equality of their arguments. -/
theorem upd_congr {a a' b b' : (⟨2, ![100000, 128]⟩ : Shape).Idx → EReal} {w w' : (⟨2, ![128, 128]⟩ : Shape).Idx → EReal}
    {v v' : (⟨1, ![128]⟩ : Shape).Idx → EReal} (ha : a = a') (hb : b = b') (hw : w = w') (hv : v = v') :
    Cert.Spec.upd a b w v = Cert.Spec.upd a' b' w' v' := by subst ha hb hw hv; rfl

theorem msg_congr {a a' b b' e e' : (⟨2, ![640000, 128]⟩ : Shape).Idx → EReal}
    {w w' r r' : (⟨2, ![384, 128]⟩ : Shape).Idx → EReal} {v v' s s' : (⟨1, ![128]⟩ : Shape).Idx → EReal}
    (ha : a = a') (hb : b = b') (he : e = e') (hw : w = w') (hv : v = v') (hr : r = r') (hs : s = s') :
    Cert.Spec.msg a b e w v r s = Cert.Spec.msg a' b' e' w' v' r' s' := by subst ha hb he hw hv hr hs; rfl

/-- What the message region leaves, over the launch memory. -/
theorem messages_eq (c : Dev nD) (h2 : Cert.PreRange.InRange (m ((c : Thread nD τ).loc main_arg2))) (h3 : Cert.PreRange.InRange (m ((c : Thread nD τ).loc main_arg3))) :
    (dat0 (F := Ideal) (V2 m ρ) c).arrAt 7 cfg0.N
      = Cert.Spec.msg
          (Host.gather gather_S100000x128_S640000x1_S640000x128_1_0_n_n_0_1_1128 (m ((c : Thread nD τ).loc main_arg0)) (wrapped (m ((c : Thread nD τ).loc main_arg2))))
          (Host.gather gather_S100000x128_S640000x1_S640000x128_1_0_n_n_0_1_1128 (m ((c : Thread nD τ).loc main_arg0)) (wrapped (m ((c : Thread nD τ).loc main_arg3))))
          (m ((c : Thread nD τ).loc main_arg1)) (m ((c : Thread nD τ).loc main_arg4)) (m ((c : Thread nD τ).loc main_arg5)) (m ((c : Thread nD τ).loc main_arg6)) (m ((c : Thread nD τ).loc main_arg7)) :=
  (Cert.KernelIdeal.MsgArray.array_eq (V2 m ρ) c).trans
    (msg_congr
      ((entry0_v0 m ρ c).trans (rowsOrFill_eq _ _ h2))
      ((entry0_v1 m ρ c).trans (rowsOrFill_eq _ _ h3))
      (entry0_main_arg1 m ρ c) (entry0_main_arg4 m ρ c) (entry0_main_arg5 m ρ c) (entry0_main_arg6 m ρ c) (entry0_main_arg7 m ρ c))

/-- The whole step as one function of the ten argument arrays: gather the rows at the two moved indices, form the
    messages, add them up at the destination index into an array of zeros, update the nodes. -/
def out (x0 : FVec Ideal S100000x128 .f32) (x1 : FVec Ideal S640000x128 .f32) (x2 x3 : IVec S640000 32)
    (x4 : FVec Ideal S384x128 .f32) (x5 : FVec Ideal S128 .f32) (x6 : FVec Ideal S384x128 .f32) (x7 : FVec Ideal S128 .f32)
    (x8 : FVec Ideal S128x128 .f32) (x9 : FVec Ideal S128 .f32) : FVec Ideal S100000x128 .f32 :=
  Cert.Spec.upd
      (Host.scatterAdd (F := Ideal) (φ := .f32) scatter_S100000x128_S640000x1_S640000x128_1_0_0_1
        (broadcastInDim S100000x128 ![] bcast_S_S100000x128 (constant S_ .f32 0x00000000#32))
        (broadcastInDim S640000x1 ![0] bcast_S640000_S640000x1_0 x3)
        (Cert.Spec.msg
          (Host.gather gather_S100000x128_S640000x1_S640000x128_1_0_n_n_0_1_1128 x0 (wrapped x2))
          (Host.gather gather_S100000x128_S640000x1_S640000x128_1_0_n_n_0_1_1128 x0 (wrapped x3))
          x1 x4 x5 x6 x7))
      x0 x8 x9

/-- The result array at the end of the run, over the launch memory. -/
theorem result_eq (c : Dev nD) (h2 : Cert.PreRange.InRange (m ((c : Thread nD τ).loc main_arg2))) (h3 : Cert.PreRange.InRange (m ((c : Thread nD τ).loc main_arg3))) :
    W5 m ρ c (Proc.devRef .tc main_v6)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W5_arr m ρ c 4).trans ((Cert.KernelIdeal.UpdArray.array_eq (V4 m ρ) c).trans
    (upd_congr
      ((entry1_v5 m ρ c).trans (congrArg _ (messages_eq m ρ c h2 h3)))
      (entry1_main_arg0 m ρ c) (entry1_main_arg8 m ρ c) (entry1_main_arg9 m ρ c)))

end Cert.KernelIdeal.KernelValue

end
-- ==== Proof.RefValue.lean ====
import proofs.«406122_j46643344835303_1_alg».proof.Proof.Gen.ReferenceIdeal.Read
import proofs.«406122_j46643344835303_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! ### Where the layers read their operands -/

/-- Row `e` of the concatenated rows, at column `k`. -/
theorem row_idx (e : Fin 640000) (j : Fin 128) (k : Fin 384) : lidx_main_v15 (ix2 e j) k = ix2 e k :=
  funext fun a => Fin.ext (by match a with | ⟨0, _⟩ => rfl | ⟨1, _⟩ => rfl)

/-- Entry `(k, j)` of a weight matrix of 384 rows. -/
theorem weight_idx (e : Fin 640000) (j : Fin 128) (k : Fin 384) : ridx_main_v15 (ix2 e j) k = ix2 k j :=
  funext fun a => Fin.ext (by match a with | ⟨0, _⟩ => rfl | ⟨1, _⟩ => rfl)

/-- Entry `j` of the forward bias, broadcast along the edges. -/
theorem bias_idx (e : Fin 640000) (j : Fin 128) : idx_main_v16 (idx_main_v17 (ix2 e j)) = ix1 j :=
  funext fun a => Fin.ext (by match a with | ⟨0, _⟩ => rfl)

/-- Row `n` of the aggregated messages, at column `k`. -/
theorem agg_idx (n : Fin 100000) (j : Fin 128) (k : Fin 128) : lidx_main_v29 (ix2 n j) k = ix2 n k :=
  funext fun a => Fin.ext (by match a with | ⟨0, _⟩ => rfl | ⟨1, _⟩ => rfl)

/-- Entry `(k, j)` of the update's weight matrix. -/
theorem upd_weight_idx (n : Fin 100000) (j : Fin 128) (k : Fin 128) : ridx_main_v29 (ix2 n j) k = ix2 k j :=
  funext fun a => Fin.ext (by match a with | ⟨0, _⟩ => rfl | ⟨1, _⟩ => rfl)

/-- Entry `j` of the update's bias, broadcast along the nodes. -/
theorem upd_bias_idx (n : Fin 100000) (j : Fin 128) : idx_main_v30 (idx_main_v31 (ix2 n j)) = ix1 j :=
  funext fun a => Fin.ext (by match a with | ⟨0, _⟩ => rfl)

/-- Row `e` of the concatenated rows, at column `k`, as the reverse layer reads it. -/
theorem rev_row_idx (e : Fin 640000) (j : Fin 128) (k : Fin 384) : lidx_main_v20 (ix2 e j) k = ix2 e k :=
  funext fun a => Fin.ext (by match a with | ⟨0, _⟩ => rfl | ⟨1, _⟩ => rfl)

/-- Entry `(k, j)` of the reverse layer's weight matrix. -/
theorem rev_weight_idx (e : Fin 640000) (j : Fin 128) (k : Fin 384) : ridx_main_v20 (ix2 e j) k = ix2 k j :=
  funext fun a => Fin.ext (by match a with | ⟨0, _⟩ => rfl | ⟨1, _⟩ => rfl)

/-- Entry `j` of the reverse bias, broadcast along the edges. -/
theorem rev_bias_idx (e : Fin 640000) (j : Fin 128) : idx_main_v21 (idx_main_v22 (ix2 e j)) = ix1 j :=
  funext fun a => Fin.ext (by match a with | ⟨0, _⟩ => rfl)

/-! ### The concatenated row -/

/-- Three arrays of 128 columns side by side, read at a column: the piece whose span holds the column, at the
    column less the widths before it. -/
theorem three_pieces (A B C : S640000x128.Idx → EReal) (e : Fin 640000) (k : Fin 384) :
    concatenate S640000x384 1 [⟨S640000x128, A⟩, ⟨S640000x128, B⟩, ⟨S640000x128, C⟩]
        concatenates_S640000x128_S640000x128_S640000x128_S640000x384_d1 (ix2 e k)
      = Cert.Spec.cat3 A B C e k := by
  unfold Cert.Spec.cat3
  by_cases h : k.val < 128
  · rw [dif_pos h]
    refine concatenate_apply_piece (t := S640000x384) (1 : Fin 2) [⟨S640000x128, A⟩, ⟨S640000x128, B⟩, ⟨S640000x128, C⟩] concatenates_S640000x128_S640000x128_S640000x128_S640000x384_d1 (ix2 e k) 0 (by show 0 < 3; omega) S640000x128 A rfl rfl 0 rfl
      (ix2 e ⟨k.val, h⟩) (fun b hb => ?_) ?_
    · match b with
      | ⟨0, _⟩ => rfl
      | ⟨1, _⟩ => exact absurd rfl hb
    · show 0 + k.val = k.val
      omega
  · rw [dif_neg h]
    by_cases h' : k.val < 256
    · rw [dif_pos h']
      refine concatenate_apply_piece (t := S640000x384) (1 : Fin 2) [⟨S640000x128, A⟩, ⟨S640000x128, B⟩, ⟨S640000x128, C⟩] concatenates_S640000x128_S640000x128_S640000x128_S640000x384_d1 (ix2 e k) 1 (by show 1 < 3; omega) S640000x128 B rfl rfl 128 rfl
        (ix2 e ⟨k.val - 128, by omega⟩) (fun b hb => ?_) ?_
      · match b with
        | ⟨0, _⟩ => rfl
        | ⟨1, _⟩ => exact absurd rfl hb
      · show 128 + (k.val - 128) = k.val
        omega
    · rw [dif_neg h']
      refine concatenate_apply_piece (t := S640000x384) (1 : Fin 2) [⟨S640000x128, A⟩, ⟨S640000x128, B⟩, ⟨S640000x128, C⟩] concatenates_S640000x128_S640000x128_S640000x128_S640000x384_d1 (ix2 e k) 2 (by show 2 < 3; omega) S640000x128 C rfl rfl 256 rfl
        (ix2 e ⟨k.val - 256, by omega⟩) (fun b hb => ?_) ?_
      · match b with
        | ⟨0, _⟩ => rfl
        | ⟨1, _⟩ => exact absurd rfl hb
      · show 256 + (k.val - 256) = k.val
        have := k.isLt
        omega

/-- The concatenation the program builds is the row `[a e | b e | c e]` of the two gathered arrays and the edge
    features. -/
theorem row_eq (x0 : (⟨S100000x128, .f32⟩ : BufTy).Contents (Elt Ideal)) (x1 : (⟨S640000x128, .f32⟩ : BufTy).Contents (Elt Ideal)) (x2 x3 : (⟨S640000, .i32⟩ : BufTy).Contents (Elt Ideal)) (e : Fin 640000) (k : Fin 384) :
    val_main_v14 (F := Ideal) x0 x1 x2 x3 (ix2 e k)
      = Cert.Spec.cat3 (val_main_v6 (F := Ideal) x0 x2) (val_main_v13 (F := Ideal) x0 x3) x1 e k := by
  unfold val_main_v14
  exact three_pieces _ _ _ e k

/-! ### The messages -/

/-- What the program adds at the nodes: per edge, the two layers of the concatenated row, each followed by the
    positive part, added. -/
theorem messages_eq (x0 : (⟨S100000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x4 : (⟨S384x128, .f32⟩ : BufTy).Contents (Elt Ideal)) (x5 : (⟨S128, .f32⟩ : BufTy).Contents (Elt Ideal)) (x6 : (⟨S384x128, .f32⟩ : BufTy).Contents (Elt Ideal)) (x7 : (⟨S128, .f32⟩ : BufTy).Contents (Elt Ideal)) :
    val_main_v25 (F := Ideal) x0 x1 x2 x3 x4 x5 x6 x7
      = Cert.Spec.msg (val_main_v6 (F := Ideal) x0 x2) (val_main_v13 (F := Ideal) x0 x3) x1 x4 x5 x6 x7 := by
  funext i
  obtain ⟨e, j, rfl⟩ : ∃ (e : Fin 640000) (j : Fin 128), i = ix2 e j := ⟨i 0, i 1, eq_ix2 i⟩
  rw [Cert.Spec.msg_apply, val_main_v25_apply, val_main_v19_apply, val_main_v24_apply, val_main_v18_apply,
    val_main_v23_apply, val_main_v15_apply, val_main_v20_apply, val_main_v17_apply, val_main_v22_apply,
    val_main_v16_apply, val_main_v21_apply, val_main_call0_v0_apply, val_main_call1_v0_apply,
    val_main_call0_cst_apply, val_main_call1_cst_apply]
  simp only [row_idx, weight_idx, bias_idx, rev_row_idx, rev_weight_idx, rev_bias_idx, row_eq, Cert.Spec.layer384,
    Ideal.addf_def, Ideal.maximumf_def, Ideal.ofBits_def, Ideal.ofBits_zero_f32]

/-! ### The node update -/

/-- The program's result is the node update of whatever its segment sum aggregated. -/
theorem update_eq (x0 : (⟨S100000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x4 : (⟨S384x128, .f32⟩ : BufTy).Contents (Elt Ideal)) (x5 : (⟨S128, .f32⟩ : BufTy).Contents (Elt Ideal)) (x6 : (⟨S384x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v34 (F := Ideal) x0 x1 x2 x3 x4 x5 x6 x7 x8 x9
      = Cert.Spec.upd (val_main_v28 (F := Ideal) x0 x1 x2 x3 x4 x5 x6 x7) x0 x8 x9 := by
  funext i
  obtain ⟨n, j, rfl⟩ : ∃ (n : Fin 100000) (j : Fin 128), i = ix2 n j := ⟨i 0, i 1, eq_ix2 i⟩
  rw [Cert.Spec.upd_apply, val_main_v34_apply, val_main_v33_apply, val_main_v32_apply, val_main_v29_apply,
    val_main_v31_apply, val_main_v30_apply, val_main_call2_v0_apply, val_main_call2_cst_apply]
  simp only [agg_idx, upd_weight_idx, upd_bias_idx, Cert.Spec.layer128,
    Ideal.addf_def, Ideal.maximumf_def, Ideal.ofBits_def, Ideal.ofBits_zero_f32]

/-- The reference's result, as a function of its ten arguments: the node update of what the segment sum aggregates
    of the messages of the two gathered rows and the edge features. The two gathers, the broadcast index and the
    zero array are kept as the stages the program computes them by. -/
theorem result_eq (x0 : (⟨S100000x128, .f32⟩ : BufTy).Contents (Elt Ideal)) (x1 : (⟨S640000x128, .f32⟩ : BufTy).Contents (Elt Ideal)) (x2 : (⟨S640000, .i32⟩ : BufTy).Contents (Elt Ideal)) (x3 : (⟨S640000, .i32⟩ : BufTy).Contents (Elt Ideal)) (x4 : (⟨S384x128, .f32⟩ : BufTy).Contents (Elt Ideal)) (x5 : (⟨S128, .f32⟩ : BufTy).Contents (Elt Ideal)) (x6 : (⟨S384x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v34 (F := Ideal) x0 x1 x2 x3 x4 x5 x6 x7 x8 x9
      = Cert.Spec.upd
          (Host.scatterAdd (F := Ideal) (φ := .f32) scatter_S100000x128_S640000x1_S640000x128_1_0_0_1 (val_main_v26 (F := Ideal)) (val_main_v27 (F := Ideal) x3)
            (Cert.Spec.msg (val_main_v6 (F := Ideal) x0 x2) (val_main_v13 (F := Ideal) x0 x3) x1 x4 x5 x6 x7))
          x0 x8 x9 := by
  rw [update_eq, ← messages_eq]
  rfl

end Cert.ReferenceIdeal.RefValue

end
-- ==== Proof.Bridge.lean ====
import proofs.«406122_j46643344835303_1_alg».proof.Proof.KernelValue
import proofs.«406122_j46643344835303_1_alg».proof.Proof.RefValue

set_option maxRecDepth 16384

/-!
  The reference's result is the kernel program's function of the same ten arrays.

  Both programs move a negative index up by the number of rows in the same way, gather with the same gather, add the
  messages up with the same scatter-add into the same array of zeros; the two printed programs only name these
  operations, their shapes and their side conditions in two vocabularies. So once the reference's result is written as
  the node update of the scatter-add of the messages of its two gathers, it is the kernel program's term, name for name.
-/

noncomputable section

namespace Cert.Bridge

open Idealize.ShloMosaic

theorem ref_eq_out (x0 : FVec Ideal Cert.KernelIdeal.S100000x128 .f32) (x1 : FVec Ideal Cert.KernelIdeal.S640000x128 .f32)
    (x2 x3 : IVec Cert.KernelIdeal.S640000 32)
    (x4 : FVec Ideal Cert.KernelIdeal.S384x128 .f32) (x5 : FVec Ideal Cert.KernelIdeal.S128 .f32)
    (x6 : FVec Ideal Cert.KernelIdeal.S384x128 .f32) (x7 : FVec Ideal Cert.KernelIdeal.S128 .f32)
    (x8 : FVec Ideal Cert.KernelIdeal.S128x128 .f32) (x9 : FVec Ideal Cert.KernelIdeal.S128 .f32) :
    Cert.ReferenceIdeal.Read.val_main_v34 (F := Ideal) x0 x1 x2 x3 x4 x5 x6 x7 x8 x9
      = Cert.KernelIdeal.KernelValue.out x0 x1 x2 x3 x4 x5 x6 x7 x8 x9 :=
  (Cert.ReferenceIdeal.RefValue.result_eq x0 x1 x2 x3 x4 x5 x6 x7 x8 x9).trans (by
    unfold Cert.KernelIdeal.KernelValue.out Cert.KernelIdeal.TakeRows.wrapped
    unfold Cert.ReferenceIdeal.Read.val_main_v6 Cert.ReferenceIdeal.Read.val_main_v13 Cert.ReferenceIdeal.Read.val_main_v26 Cert.ReferenceIdeal.Read.val_main_v27
    unfold Cert.ReferenceIdeal.Read.val_main_v5 Cert.ReferenceIdeal.Read.val_main_v12 Cert.ReferenceIdeal.Read.val_main_cst
    unfold Cert.ReferenceIdeal.Read.val_main_v4 Cert.ReferenceIdeal.Read.val_main_v11
    unfold Cert.ReferenceIdeal.Read.val_main_v1 Cert.ReferenceIdeal.Read.val_main_v3 Cert.ReferenceIdeal.Read.val_main_v8 Cert.ReferenceIdeal.Read.val_main_v10
    unfold Cert.ReferenceIdeal.Read.val_main_v0 Cert.ReferenceIdeal.Read.val_main_v2 Cert.ReferenceIdeal.Read.val_main_v7 Cert.ReferenceIdeal.Read.val_main_v9
    unfold Cert.ReferenceIdeal.Read.val_main_c Cert.ReferenceIdeal.Read.val_main_c_0 Cert.ReferenceIdeal.Read.val_main_c_1 Cert.ReferenceIdeal.Read.val_main_c_2
    rfl)

end Cert.Bridge

end
-- ==== Proof.lean ====
/-
  One step of message passing on a graph of 100000 nodes and 640000 edges, computed by two tiled kernels with plain
  host code between them, against the same step written with whole-array operations.

  Every edge gathers the feature rows of its two end nodes, puts its own features beside them, and sends the sum of two
  dense layers of that row of 384 numbers, each followed by the positive part; the messages are added up at the edge's
  destination node; every node then adds to its features the positive part of one dense layer of what arrived.

  Over the extended reals the two programs differ in one place only. Both move a negative index up by the number of
  rows; past that, the kernel program's gather fills a row whose index is still outside the table with the word that
  denotes the bottom element, while the reference's gather reads the nearest row. Where every index is at least
  -100000 and below 100000 (the precondition says so) the moved index is always a row of the table, nothing is
  filled, and the two gathers are one function. The rest is bookkeeping of sums: a tile of 4000 edges or of 5000 nodes
  holds the rows of the whole-array result that lie in it, a matrix product into a zero accumulator is the plain sum
  over the contracted axis, a change of float format is the identity, and the scatter-add and the gather are the same
  operations on both sides and are never opened. No law that needs finiteness is used.

  The three frames: the two kernel programs' are the generated frame certificates; the reference has no kernel, and its
  frame is its run with the result dropped. The idealized kernel program is the printed program's own text read over
  the extended reals (no rewrite was applied), so that claim is `True`.
-/
import proofs.«406122_j46643344835303_1_alg».proof.Defs
import proofs.«406122_j46643344835303_1_alg».proof.Proof.Gen.Kernel
import proofs.«406122_j46643344835303_1_alg».proof.Proof.Gen.Kernel.Frame
import proofs.«406122_j46643344835303_1_alg».proof.Proof.Gen.KernelIdeal
import proofs.«406122_j46643344835303_1_alg».proof.Proof.Gen.KernelIdeal.Frame
import proofs.«406122_j46643344835303_1_alg».proof.Proof.Gen.ReferenceIdeal
import proofs.«406122_j46643344835303_1_alg».proof.Proof.Gen.ReferenceIdeal.Run
import proofs.«406122_j46643344835303_1_alg».proof.Proof.Gen.ReferenceIdeal.Read
import proofs.«406122_j46643344835303_1_alg».proof.Proof.Gen.Pre_finite_inputs
import proofs.«406122_j46643344835303_1_alg».proof.Proof.KernelRun
import proofs.«406122_j46643344835303_1_alg».proof.Proof.KernelValue
import proofs.«406122_j46643344835303_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with every argument as launched; the frame forgets what it says of the result. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, the kernel program's with its result at the step's function of the launch memory (its regions'
    arrays read back through the host operations between them, the two index arrays in range by the precondition),
    the reference's at its composed term, which is that same function of arguments that agree. -/
theorem algebraic : Cert.algebraic_KernelIdeal_ReferenceIdeal := by
  intro m ρ m' ρ' hpre hagree
  have hr : ∀ c : Dev Cert.KernelIdeal.nD,
      Cert.PreRange.InRange (m ((c.tc : Thread Cert.KernelIdeal.nD Cert.KernelIdeal.τ).loc Cert.KernelIdeal.main_arg2)) ∧ Cert.PreRange.InRange (m ((c.tc : Thread Cert.KernelIdeal.nD Cert.KernelIdeal.τ).loc Cert.KernelIdeal.main_arg3)) :=
    fun c => Cert.PreRange.of_pre _ _ _ _ _ _ _ _ _ _ (hpre c)
  refine ⟨fun c => Cert.KernelIdeal.KernelValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KernelValue.result_eq m ρ c (hr c).1 (hr c).2), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [e0, e1, e2, e3, e4, e5, e6, e7, e8, e9]
    exact (Cert.ReferenceIdeal.Read.val_main_v34_eq _ _ _ _ _ _ _ _ _ _).trans (Cert.Bridge.ref_eq_out _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
